-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S1x16384, .f32⟩
  | .hbm, ⟨5, _⟩ => ⟨S16384x1, .f32⟩
  | .hbm, ⟨6, _⟩ => ⟨S1x16384, .f32⟩
  | .hbm, ⟨7, _⟩ => ⟨S16384x1, .f32⟩
  | .hbm, ⟨8, _⟩ => ⟨S16384, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S16384x1_S16384 : S16384x1.ShapeCasts S16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

abbrev win0_0 : Pipeline.Window sig grid0 :=
  Pipeline.Window.ofSpec (Memref.whole main_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S1x16384, .f32⟩
  | .hbm, ⟨5, _⟩ => ⟨S16384x16384, .f32⟩
  | .hbm, ⟨6, _⟩ => ⟨S16384x16384, .f32⟩
  | .hbm, ⟨7, _⟩ => ⟨S16384x16384, .i1⟩
  | .hbm, ⟨8, _⟩ => ⟨S1x16384, .f32⟩
  | .hbm, ⟨9, _⟩ => ⟨S16384x1, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_call0_v0 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)

variable [Facts₀]

class Facts : Prop extends Facts₀ where

variable [Facts]
-- ==== Proof.Pieces.lean ====
/-
  What one run of the kernel body leaves in the accumulator, in the inverse-weight column and in the output block,
  as the body's stored values of what it loaded — for each of the body's three control cases (the first key block of a
  row block: reset, then accumulate; a middle key block: accumulate; the last key block: accumulate, then finish).
-/
import proofs.«107627_j68367289418254_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First key block: the accumulator is reset to the zero column, read back, and the block's masked sums are added. -/
theorem accA (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1 .f32) (x1 : Vec F S1x1024 .f32) (x2 : Vec F S1024x1 .f32) (x3 : Vec F S1x1024 .f32) :
    sout0_A_0 c i arg2 harg2 arg3 harg3 arg4 harg4 arg5 harg5 arg6 harg6 arg7 harg7 arg8 harg8 hc0 hc1 x0 x1 x2 x3 = k0_pay3 x2 x3 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz]
  simp only [View.readAt_eq_ld, harg2.read_unread, harg3.read_unread, harg4.read_unread, harg5.read_unread, harg7.read_unread, harg8.read_unread,
    View.ld_unit_zero (S := S1024x1) hz, View.ld_unit_zero (S := S1x1024) hz, View.readCov_unit_zero (S := S1024x1) _ hz]

/-- First key block: the inverse weights are computed from the row block's logits. -/
theorem invA (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1 .f32) (x1 : Vec F S1x1024 .f32) (x2 : Vec F S1024x1 .f32) (x3 : Vec F S1x1024 .f32) :
    sout0_A_1 c i arg2 harg2 arg3 harg3 arg4 harg4 arg5 harg5 arg6 harg6 arg7 harg7 arg8 harg8 hc0 hc1 x0 x1 x2 x3 = k0_pay2 x0 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero (S := S1024x1) hz]
  simp only [View.readAt_eq_ld, harg2.read_unread, harg3.read_unread, harg4.read_unread, harg5.read_unread, harg7.read_unread, harg8.read_unread,
    View.ld_unit_zero (S := S1024x1) hz, View.ld_unit_zero (S := S1x1024) hz, View.readCov_unit_zero (S := S1024x1) _ hz]

/-- A middle key block: the block's masked sums are added to what the accumulator held. -/
theorem accB (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1 .f32) (x1 : Vec F S1x1024 .f32) (x2 : Vec F S1024x1 .f32) (x3 : Vec F S1x1024 .f32) (xs0 xs1 : Vec F S1024x1 .f32) :
    sout0_B_0 c i arg2 harg2 arg3 harg3 arg4 harg4 arg5 harg5 arg6 harg6 arg7 harg7 arg8 harg8 hc0 hc1 x0 x1 x2 x3 xs0 xs1 = k0_pay3 x2 x3 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S1024x1) hz]
  simp only [View.readAt_eq_ld, harg2.read_unread, harg3.read_unread, harg4.read_unread, harg5.read_unread, harg7.read_unread, harg8.read_unread,
    View.ld_unit_zero (S := S1024x1) hz, View.ld_unit_zero (S := S1x1024) hz, View.readCov_unit_zero (S := S1024x1) _ hz]

/-- The last key block: the same accumulation. -/
theorem accC (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1024x1 .f32) (x3 : Vec F S1x1024 .f32) (xs0 xs1 : Vec F S1024x1 .f32) :
    sout0_C_0 c i arg2 harg2 arg3 harg3 arg4 harg4 arg5 harg5 arg6 harg6 arg7 harg7 arg8 harg8 hc0 hc1 x0 x1 x2 x3 xs0 xs1 = k0_pay3 x2 x3 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1024x1) hz]
  simp only [View.readAt_eq_ld, harg2.read_unread, harg3.read_unread, harg4.read_unread, harg5.read_unread, harg7.read_unread, harg8.read_unread,
    View.ld_unit_zero (S := S1024x1) hz, View.ld_unit_zero (S := S1x1024) hz, View.readCov_unit_zero (S := S1024x1) _ hz]

/-- The last key block: the output block is the finish of the inverse weights and the full accumulator. -/
theorem outC (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1 .f32) (x1 : Vec F S1x1024 .f32) (x2 : Vec F S1024x1 .f32) (x3 : Vec F S1x1024 .f32) (xs0 xs1 : Vec F S1024x1 .f32) :
    out0_C_4 c i arg2 harg2 arg3 harg3 arg4 harg4 arg5 harg5 arg6 harg6 arg7 harg7 arg8 harg8 hc0 hc1 x0 x1 x2 x3 xs0 xs1 = k0_pay4 xs1 (k0_pay3 x2 x3 x1 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1024x1) hz]
  simp only [View.readAt_eq_ld, harg2.read_unread, harg3.read_unread, harg4.read_unread, harg5.read_unread, harg7.read_unread, harg8.read_unread,
    View.ld_unit_zero (S := S1024x1) hz, View.ld_unit_zero (S := S1x1024) hz, View.readCov_unit_zero (S := S1024x1) _ hz]

end Cert.KernelIdeal.Pieces

end
-- ==== Proof.Payload.lean ====
/-
  What the kernel body's four stores write, element by element, at the ideal instance.

  The body keeps a column accumulator `acc` and a column `inv` of 1024 rows. Its stores are: the zero column (the
  accumulator's reset); `exp (0 - x)` of the row block's logits (the inverse weights); the accumulator plus, row by
  row, the sum over the 1024 keys of the key block of `exp (logit of the key)` where the row's score is at least the
  key's and zero elsewhere; and `0 - log (inv * acc + 1e-10)`.
-/
import proofs.«107627_j68367289418254_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A column of 1024 viewed as a 1024 × 1 array reads row `r` at `(r, 0)`. -/
theorem col_cast_apply {α : Type} (v : S1024.Idx → α) (h : S1024.ShapeCasts S1024x1) (r : Fin 1024) (z : Fin 1) :
    shapeCast S1024x1 v h (ix2 r z) = v (ix1 r) :=
  shapeCast_apply v h _ _ (by
    have hz : z.val = 0 := by omega
    rw [Shape.rowMajor_val_one, Shape.rowMajor_val_two]
    show r.val = r.val * 1 + z.val
    rw [hz]; omega)

/-- A 1024 × 1 column broadcast along the keys reads its row. -/
theorem bcast_col_apply {α : Type} (v : S1024x1.Idx → α) (h : S1024x1.Broadcasts S1024x1024) (r q : Fin 1024) :
    broadcastTo S1024x1024 v h (ix2 r q) = v (ix2 r (0 : Fin 1)) :=
  broadcastTo_apply v h _ _ (fun a => match a with
    | ⟨0, _⟩ => by show r.val = if (1024 : Nat) = 1 then 0 else r.val; rw [if_neg (by decide)]
    | ⟨1, _⟩ => by show 0 = if (1 : Nat) = 1 then 0 else q.val; rw [if_pos rfl])

/-- A 1 × 1024 row broadcast along the rows reads its key. -/
theorem bcast_row_apply {α : Type} (v : S1x1024.Idx → α) (h : S1x1024.Broadcasts S1024x1024) (r q : Fin 1024) :
    broadcastTo S1024x1024 v h (ix2 r q) = v (ix2 (0 : Fin 1) q) :=
  broadcastTo_apply v h _ _ (fun a => match a with
    | ⟨0, _⟩ => by show 0 = if (1 : Nat) = 1 then 0 else r.val; rw [if_pos rfl]
    | ⟨1, _⟩ => by show q.val = if (1024 : Nat) = 1 then 0 else q.val; rw [if_neg (by decide)])

/-- A lane sum of a 1024 × 1024 array along the keys, at row `r`, is the sum over the keys of that row. -/
theorem lane_sum_apply (src : FVec Ideal S1024x1024 .f32) (h : S1024x1024.Reduces [1] S1024)
    (hφ : FKind.Formats .f32) (hacc : (0x00000000#32 : BitVec 32) = FKind.add.neutral .f32 hφ) (r : Fin 1024) :
    multiReduction .add [1] S1024 src 0x00000000#32 h hφ hacc (ix1 r) = ∑ q : Fin 1024, src (ix2 r q) := by
  refine (Ideal.multiReduction_add_single src 0x00000000#32 h hφ hacc (ix1 r)).trans ?_
  refine Finset.sum_congr rfl fun q _ => congrArg src ?_
  funext a
  match a with
  | ⟨0, _⟩ => rfl
  | ⟨1, _⟩ => rfl

/-- The reset stores the zero column. -/
theorem pay1_apply (y : S1024x1.Idx) : k0_pay1 (F := Ideal) y = Ideal.ofBits .f32 0x00000000#32 := by
  unfold k0_pay1
  simp only [shapeCast_self]
  rfl

/-- The inverse weights: `exp (0 - x)` of the row block's logits. -/
theorem pay2_apply (x0 : Vec Ideal S1024x1 .f32) (y : S1024x1.Idx) :
    k0_pay2 (F := Ideal) x0 y = Ideal.exp (Ideal.ofBits .f32 0x00000000#32 - x0 y) := by
  unfold k0_pay2
  simp only [shapeCast_self]
  rfl

/-- The accumulation: what the accumulator held plus the row's masked sum over the key block. -/
theorem pay3_apply (x2 : Vec Ideal S1024x1 .f32) (x3 x1 : Vec Ideal S1x1024 .f32) (acc : Vec Ideal S1024x1 .f32)
    (r : Fin 1024) (z : Fin 1) :
    k0_pay3 (F := Ideal) x2 x3 x1 acc (ix2 r z)
      = acc (ix2 r z) + ∑ q : Fin 1024, Scalar.select (Ideal.cmp .oge (x2 (ix2 r (0 : Fin 1))) (x3 (ix2 (0 : Fin 1) q)))
          (Ideal.exp (x1 (ix2 (0 : Fin 1) q))) (Ideal.ofBits .f32 0x00000000#32) := by
  unfold k0_pay3
  simp only [shapeCast_self]
  rw [addf_apply, col_cast_apply]
  refine congrArg (acc (ix2 r z) + ·) ((lane_sum_apply _ reduces_S1024x1024_S1024 _ _ r).trans
    (Finset.sum_congr rfl fun q _ => ?_))
  rw [select_apply, cmpf_apply, bcast_col_apply, bcast_row_apply, bcast_row_apply]
  rfl

/-- The finish: `0 - log (inv * acc + 1e-10)`. -/
theorem pay4_apply (inv acc : Vec Ideal S1024x1 .f32) (y : S1024x1.Idx) :
    k0_pay4 (F := Ideal) inv acc y
      = Ideal.ofBits .f32 0x00000000#32 - Ideal.log (inv y * acc y + Ideal.ofBits .f32 0x2EDBE6FF#32) := by
  unfold k0_pay4
  rfl

end Cert.KernelIdeal.Pay

end
-- ==== Proof.Spec.lean ====
/-
  The arithmetic shared by the two programs, over the extended reals.

  For a row `a` and a key `b` of the 16384 positions, with perturbed scores `g` and logits `l`, the kernel keeps
  `exp (l b)` where `g a ≥ g b` and zero elsewhere, sums these over the keys sixteen blocks of 1024 at a time, and
  multiplies the total by `exp (0 - l a)`; the reference keeps `exp (l b - l a)` where `g a ≥ g b` and sums over all keys
  at once. On FINITE logits the two totals agree: `exp (l b - l a) = exp (-l a) * exp (l b)` on the reals, a real factor
  distributes over a finite sum of reals, and a sum over sixteen blocks of 1024 is the sum over all 16384 keys.
  Finiteness is needed: on the extended reals a product does not distribute over a sum with infinite terms.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- Key `q` of key block `s`, as one of the 16384 positions (reduced modulo 16384 so that it is total in `s`). -/
def col (s : ℕ) (q : Fin 1024) : Fin 16384 := ⟨(1024 * s + q.val) % 16384, Nat.mod_lt _ (by norm_num)⟩

/-- Row `r` of row block `i`, likewise. -/
def row (i : ℕ) (r : Fin 1024) : Fin 16384 := ⟨(1024 * i + r.val) % 16384, Nat.mod_lt _ (by norm_num)⟩

theorem col_val {s : ℕ} (hs : s < 16) (q : Fin 1024) : (col s q).val = 1024 * s + q.val := by
  have := q.isLt
  show (1024 * s + q.val) % 16384 = _
  exact Nat.mod_eq_of_lt (by omega)

theorem row_val {i : ℕ} (hi : i < 16) (r : Fin 1024) : (row i r).val = 1024 * i + r.val := by
  have := r.isLt
  show (1024 * i + r.val) % 16384 = _
  exact Nat.mod_eq_of_lt (by omega)

/-- What the kernel adds for key `b` in row `a`: `exp (l b)` where `g a ≥ g b`, else zero. -/
def wK (g l : Fin 16384 → EReal) (a b : Fin 16384) : EReal :=
  Scalar.select (Ideal.cmp .oge (g a) (g b)) (Ideal.exp (l b)) 0

/-- What the reference adds for key `b` in row `a`: `exp (l b - l a)` where `g a ≥ g b`, else zero. -/
def wR (g l : Fin 16384 → EReal) (a b : Fin 16384) : EReal :=
  Scalar.select (Ideal.cmp .oge (g a) (g b)) (Ideal.exp (l b - l a)) 0

/-- The kernel's partial sum of row `a` over key block `s`. -/
def blockSum (g l : Fin 16384 → EReal) (a : Fin 16384) (s : ℕ) : EReal := ∑ q : Fin 1024, wK g l a (col s q)

/-- Sixteen blocks of 1024 keys are all 16384 keys. -/
theorem sum_blocks {M : Type*} [AddCommMonoid M] (f : Fin 16384 → M) :
    ∑ s ∈ Finset.range 16, ∑ q : Fin 1024, f (col s q) = ∑ k, f k := by
  rw [Finset.sum_range (fun s => ∑ q : Fin 1024, f (col s q))]
  rw [← Fintype.sum_prod_type' (f := fun (s : Fin 16) (q : Fin 1024) => f (col s.val q))]
  refine Fintype.sum_equiv (finProdFinEquiv (m := 16) (n := 1024)) _ _ (fun p => ?_)
  obtain ⟨s, q⟩ := p
  refine congrArg f (Fin.ext ?_)
  rw [col_val s.isLt, finProdFinEquiv_apply_val]
  dsimp only
  omega

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: on finite logits the kernel's total, scaled by `exp (0 - l a)`, is the reference's total. -/
theorem total_eq (g l : Fin 16384 → EReal) (hl : ∀ k, ∃ x : ℝ, l k = (x : EReal)) (a : Fin 16384) :
    Ideal.exp (0 - l a) * ∑ k, wK g l a k = ∑ k, wR g l a k := by
  choose x hx using hl
  have hK : ∀ k, wK g l a k = ((if Ideal.cmp .oge (g a) (g k) = 1 then Real.exp (x k) else 0 : ℝ) : EReal) := by
    intro k
    unfold wK Scalar.select
    rw [hx k, Ideal.exp_coe]
    split_ifs <;> simp
  have hR : ∀ k, wR g l a k = ((if Ideal.cmp .oge (g a) (g k) = 1 then Real.exp (x k - x a) else 0 : ℝ) : EReal) := by
    intro k
    unfold wR Scalar.select
    rw [hx k, hx a, ← EReal.coe_sub, Ideal.exp_coe]
    split_ifs <;> simp
  simp only [hK, hR]
  rw [hx a, zero_sub, ← EReal.coe_neg, Ideal.exp_coe, ← coe_sum, ← coe_sum, ← EReal.coe_mul, Finset.mul_sum]
  refine congrArg _ (Finset.sum_congr rfl fun k _ => ?_)
  split_ifs
  · rw [← Real.exp_add]; congr 1; ring
  · simp

end Cert.Spec

end
-- ==== Proof.HostIn.lean ====
/-
  What the kernel's region finds in its four operand arrays, and what each window's block reads of them.

  Before the region the program adds the two arguments (the perturbed scores `g = logits + noise`) and views the logits and
  the scores each as a 16384 × 1 column and as a 1 × 16384 row. At grid point `t` (row block `t / 16`, key block
  `t % 16`) the column windows read rows `1024 (t / 16) + r` and the row windows read keys `1024 (t % 16) + q`.
-/
import proofs.«107627_j68367289418254_1_alg».proof.Proof.Gen.KernelIdeal.Frame
import proofs.«107627_j68367289418254_1_alg».proof.Proof.Spec
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.HostIn

open Idealize.ShloMosaic Idealize.ShloMosaic.TcCoe Idealize.SL.Sem Idealize.ShloMosaic.Tactic Idealize.ShloMosaic.ValueIdx
open Cert.KernelIdeal Cert.KernelIdeal.Gen

variable (m : (ℓ : Loc nD τ sig) → Buf (Elt Ideal) ℓ)

/-- The two argument arrays as launched: the logits and the noise. -/
abbrev a0 (c : Dev nD) : S16384.Idx → EReal := m ((c : Thread nD τ).loc main_arg0)
abbrev a1 (c : Dev nD) : S16384.Idx → EReal := m ((c : Thread nD τ).loc main_arg1)

/-- The logits, position by position. -/
def lF (c : Dev nD) : Fin 16384 → EReal := fun k => a0 m c (ix1 k)

/-- The perturbed scores `logits + noise`, position by position. -/
def gF (c : Dev nD) : Fin 16384 → EReal := fun k => a0 m c (ix1 k) + a1 m c (ix1 k)

/-- The sum of the two arguments, as the program's first operation leaves it. -/
abbrev gArr (c : Dev nD) : S16384.Idx → EReal := addf (F := Ideal) (φ := .f32) (a0 m c) (a1 m c)

theorem V_v0 (c : Dev nD) : (V m c main_v0 : S16384.Idx → EReal) = gArr m c := by
  show StableHlo.after hostOps0 (fun b => m (c, b)) (Proc.devRef .tc main_v0) = _
  after_results

theorem V_v1 (c : Dev nD) : (V m c main_v1 : S16384x1.Idx → EReal)
    = shapeCast S16384x1 (a0 m c) shapeCasts_S16384_S16384x1 := by
  show StableHlo.after hostOps0 (fun b => m (c, b)) (Proc.devRef .tc main_v1) = _
  after_results
  rfl

theorem V_v2 (c : Dev nD) : (V m c main_v2 : S1x16384.Idx → EReal)
    = shapeCast S1x16384 (a0 m c) shapeCasts_S16384_S1x16384 := by
  show StableHlo.after hostOps0 (fun b => m (c, b)) (Proc.devRef .tc main_v2) = _
  after_results
  rfl

theorem V_v3 (c : Dev nD) : (V m c main_v3 : S16384x1.Idx → EReal)
    = shapeCast S16384x1 (gArr m c) shapeCasts_S16384_S16384x1 := by
  show StableHlo.after hostOps0 (fun b => m (c, b)) (Proc.devRef .tc main_v3) = _
  after_results
  rfl

theorem V_v4 (c : Dev nD) : (V m c main_v4 : S1x16384.Idx → EReal)
    = shapeCast S1x16384 (gArr m c) shapeCasts_S16384_S1x16384 := by
  show StableHlo.after hostOps0 (fun b => m (c, b)) (Proc.devRef .tc main_v4) = _
  after_results
  rfl

/-- A 16384 × 1 view of a flat array reads position `k` at row `k`. -/
theorem col_view_apply {α : Type} (v : S16384.Idx → α) (j : S16384x1.Idx) (k : Fin 16384) (hk : (j 0).val = k.val) :
    shapeCast S16384x1 v shapeCasts_S16384_S16384x1 j = v (ix1 k) :=
  shapeCast_apply v _ j (ix1 k) (by
    have h1 : (j 1).val < 1 := idx2_lt1 j
    rw [Shape.rowMajor_val_one, Shape.rowMajor_val_two]
    show k.val = (j 0).val * 1 + (j 1).val
    omega)

/-- A 1 × 16384 view of a flat array reads position `k` at key `k`. -/
theorem row_view_apply {α : Type} (v : S16384.Idx → α) (j : S1x16384.Idx) (k : Fin 16384) (hk : (j 1).val = k.val) :
    shapeCast S1x16384 v shapeCasts_S16384_S1x16384 j = v (ix1 k) :=
  shapeCast_apply v _ j (ix1 k) (by
    have h0 : (j 0).val < 1 := idx2_lt0 j
    rw [Shape.rowMajor_val_one, Shape.rowMajor_val_two]
    show k.val = (j 0).val * 16384 + (j 1).val
    omega)

/-- The printed index maps over the grid: the column windows (and the output) sit at row block `t / 16`, the row
    windows at key block `t % 16`. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The four input blocks at a point, each at its literal type. -/
abbrev lcol (c : Dev nD) (t : Fin cfg0.N) : Vec Ideal S1024x1 .f32 := iblk m c 0 t
abbrev lrow (c : Dev nD) (t : Fin cfg0.N) : Vec Ideal S1x1024 .f32 := iblk m c 1 t
abbrev gcol (c : Dev nD) (t : Fin cfg0.N) : Vec Ideal S1024x1 .f32 := iblk m c 2 t
abbrev grow (c : Dev nD) (t : Fin cfg0.N) : Vec Ideal S1x1024 .f32 := iblk m c 3 t

theorem lcol_apply (c : Dev nD) (t : Fin cfg0.N) (r : Fin 1024) (z : Fin 1) :
    lcol m c t (ix2 r z) = lF m c (Spec.row (t.val / 16) r) := by
  have hN : t.val < 256 := lt_of_lt_of_eq t.isLt (show cfg0.N = 256 from N_0)
  obtain ⟨e0, -⟩ := idx_facts t
  unfold lcol iblk
  rw [View.read_apply]
  show V m c main_v1 (((cfg0.win 0).blk t).view.emb (ix2 r z)) = _
  rw [V_v1]
  refine col_view_apply _ _ (Spec.row (t.val / 16) r) ?_
  rw [Spec.row_val (by omega)]
  show win0_0.index t (0 : Fin 2) * 1024 + 1 * r.val = _
  rw [e0]; omega

theorem lrow_apply (c : Dev nD) (t : Fin cfg0.N) (z : Fin 1) (q : Fin 1024) :
    lrow m c t (ix2 z q) = lF m c (Spec.col (t.val % 16) q) := by
  obtain ⟨-, -, -, e1, -⟩ := idx_facts t
  unfold lrow iblk
  rw [View.read_apply]
  show V m c main_v2 (((cfg0.win 1).blk t).view.emb (ix2 z q)) = _
  rw [V_v2]
  refine row_view_apply _ _ (Spec.col (t.val % 16) q) ?_
  rw [Spec.col_val (Nat.mod_lt _ (by norm_num))]
  show win0_1.index t (1 : Fin 2) * 1024 + 1 * q.val = _
  rw [e1]; omega

theorem gcol_apply (c : Dev nD) (t : Fin cfg0.N) (r : Fin 1024) (z : Fin 1) :
    gcol m c t (ix2 r z) = gF m c (Spec.row (t.val / 16) r) := by
  have hN : t.val < 256 := lt_of_lt_of_eq t.isLt (show cfg0.N = 256 from N_0)
  obtain ⟨-, -, -, -, e2, -⟩ := idx_facts t
  unfold gcol iblk
  rw [View.read_apply]
  show V m c main_v3 (((cfg0.win 2).blk t).view.emb (ix2 r z)) = _
  rw [V_v3]
  refine (col_view_apply _ _ (Spec.row (t.val / 16) r) ?_).trans rfl
  rw [Spec.row_val (by omega)]
  show win0_2.index t (0 : Fin 2) * 1024 + 1 * r.val = _
  rw [e2]; omega

theorem grow_apply (c : Dev nD) (t : Fin cfg0.N) (z : Fin 1) (q : Fin 1024) :
    grow m c t (ix2 z q) = gF m c (Spec.col (t.val % 16) q) := by
  obtain ⟨-, -, -, -, -, -, -, e3, -⟩ := idx_facts t
  unfold grow iblk
  rw [View.read_apply]
  show V m c main_v4 (((cfg0.win 3).blk t).view.emb (ix2 z q)) = _
  rw [V_v4]
  refine (row_view_apply _ _ (Spec.col (t.val % 16) q) ?_).trans rfl
  rw [Spec.col_val (Nat.mod_lt _ (by norm_num))]
  show win0_3.index t (1 : Fin 2) * 1024 + 1 * q.val = _
  rw [e3]; omega

end Cert.KernelIdeal.HostIn

end
-- ==== Proof.Law.lean ====
/-
  The two programs' results at one position, and their equality on finite logits.

  The kernel's result at row `a` is `0 - log (exp (0 - l a) * (0 + sum of the sixteen block sums) + 1e-10)`; the
  reference's is `-(log ((0 + sum over all keys of the shifted weights) + 1e-10))`. The sixteen block sums are the sum
  over all keys, the scaled total is the reference's total when the logits are finite, and `0 - x = -x`.
-/
import proofs.«107627_j68367289418254_1_alg».proof.Proof.Spec

noncomputable section

open scoped BigOperators

namespace Cert.Spec

open Idealize.ShloMosaic

/-- The kernel's result at position `a`. -/
def outVal (g l : Fin 16384 → EReal) (a : Fin 16384) : EReal :=
  Ideal.ofBits .f32 0x00000000#32
    - Ideal.log (Ideal.exp (Ideal.ofBits .f32 0x00000000#32 - l a)
        * (Ideal.ofBits .f32 0x00000000#32 + ∑ s ∈ Finset.range 16, blockSum g l a s)
      + Ideal.ofBits .f32 0x2EDBE6FF#32)

/-- The reference's result at position `a`. -/
def refVal (g l : Fin 16384 → EReal) (a : Fin 16384) : EReal :=
  -(Ideal.log ((Ideal.ofBits .f32 0x00000000#32
        + ∑ k, Scalar.select (Ideal.cmp .oge (g a) (g k)) (Ideal.exp (l k - l a)) (Ideal.ofBits .f32 0x00000000#32))
      + Ideal.ofBits .f32 0x2EDBE6FF#32))

/-- On finite logits the two results are one extended real. -/
theorem outVal_eq_refVal (g l : Fin 16384 → EReal) (hl : ∀ k, ∃ x : ℝ, l k = (x : EReal)) (a : Fin 16384) :
    outVal g l a = refVal g l a := by
  unfold outVal refVal blockSum
  simp only [Ideal.ofBits_zero_f32]
  rw [zero_sub, zero_add, zero_add, sum_blocks (fun k => wK g l a k), total_eq g l hl a]
  rfl

end Cert.Spec

end
-- ==== Proof.Acc.lean ====
/-
  The accumulator and the inverse weights after every grid point, in closed form, and the output block a row block's last
  point writes.

  Grid point `n` works on row block `n / 16` and key block `n % 16`. After it, row `r` of the accumulator holds zero plus
  the block sums of key blocks `0 … n % 16` for position `1024 (n / 16) + r`, and row `r` of the inverse-weight column holds
  `exp (0 - logit)` of that position: the first key block resets both, each later one adds its block sum and keeps
  the inverse weights. By induction on the point. At a row block's last point (`n % 16 = 15`) all sixteen block
  sums are in, and the output block is the kernel's result at those positions.
-/
import proofs.«107627_j68367289418254_1_alg».proof.Proof.Gen.KernelIdeal.Frame
import proofs.«107627_j68367289418254_1_alg».proof.Proof.Pieces
import proofs.«107627_j68367289418254_1_alg».proof.Proof.Payload
import proofs.«107627_j68367289418254_1_alg».proof.Proof.HostIn
import proofs.«107627_j68367289418254_1_alg».proof.Proof.Law

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen Cert.KernelIdeal.HostIn

variable (m : (ℓ : Loc nD τ sig) → Buf (Elt Ideal) ℓ)

/-! ## One point's step, as the body's stored values of the point's blocks -/

theorem accA (c : Dev nD) (t : Fin cfg0.N) (h0 : t.val % 16 = 0) (h1 : ¬t.val % 16 = 15) :
    (outsAt0 m c t.val t.isLt).2.1 = k0_pay3 (gcol m c t) (grow m c t) (lrow m c t) (k0_pay1 (F := Ideal)) := by
  rw [outsAt0_A m c t h0 h1]; dsimp only
  exact Pieces.accA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem invA (c : Dev nD) (t : Fin cfg0.N) (h0 : t.val % 16 = 0) (h1 : ¬t.val % 16 = 15) :
    (outsAt0 m c t.val t.isLt).2.2 = k0_pay2 (lcol m c t) := by
  rw [outsAt0_A m c t h0 h1]; dsimp only
  exact Pieces.invA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem accB (c : Dev nD) (t : Fin cfg0.N) (h0 : ¬t.val % 16 = 0) (h1 : ¬t.val % 16 = 15) :
    (outsAt0 m c t.val t.isLt).2.1 = k0_pay3 (gcol m c t) (grow m c t) (lrow m c t) (outsAt0 m c (t.val - 1) (Nat.lt_of_le_of_lt (Nat.sub_le _ _) t.isLt)).2.1 := by
  rw [outsAt0_B m c t h0 h1]; dsimp only
  exact Pieces.accB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem invB (c : Dev nD) (t : Fin cfg0.N) (h0 : ¬t.val % 16 = 0) (h1 : ¬t.val % 16 = 15) :
    (outsAt0 m c t.val t.isLt).2.2 = (outsAt0 m c (t.val - 1) (Nat.lt_of_le_of_lt (Nat.sub_le _ _) t.isLt)).2.2 := by
  rw [outsAt0_B m c t h0 h1]; rfl

theorem accC (c : Dev nD) (t : Fin cfg0.N) (h0 : ¬t.val % 16 = 0) (h1 : t.val % 16 = 15) :
    (outsAt0 m c t.val t.isLt).2.1 = k0_pay3 (gcol m c t) (grow m c t) (lrow m c t) (outsAt0 m c (t.val - 1) (Nat.lt_of_le_of_lt (Nat.sub_le _ _) t.isLt)).2.1 := by
  rw [outsAt0_C m c t h0 h1]; dsimp only
  exact Pieces.accC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

theorem invC (c : Dev nD) (t : Fin cfg0.N) (h0 : ¬t.val % 16 = 0) (h1 : t.val % 16 = 15) :
    (outsAt0 m c t.val t.isLt).2.2 = (outsAt0 m c (t.val - 1) (Nat.lt_of_le_of_lt (Nat.sub_le _ _) t.isLt)).2.2 := by
  rw [outsAt0_C m c t h0 h1]; rfl

theorem outC (c : Dev nD) (t : Fin cfg0.N) (h0 : ¬t.val % 16 = 0) (h1 : t.val % 16 = 15) :
    (outsAt0 m c t.val t.isLt).1 = k0_pay4 (outsAt0 m c (t.val - 1) (Nat.lt_of_le_of_lt (Nat.sub_le _ _) t.isLt)).2.2 (k0_pay3 (gcol m c t) (grow m c t) (lrow m c t) (outsAt0 m c (t.val - 1) (Nat.lt_of_le_of_lt (Nat.sub_le _ _) t.isLt)).2.1) := by
  rw [outsAt0_C m c t h0 h1]; dsimp only
  exact Pieces.outC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## The closed forms -/

/-- One point's addend at row `r`: the block sum of key block `t % 16` for position `1024 (t / 16) + r`. -/
theorem addend_eq (c : Dev nD) (t : Fin cfg0.N) (r : Fin 1024) :
    ∑ q : Fin 1024, Scalar.select (Ideal.cmp .oge (gcol m c t (ix2 r (0 : Fin 1))) (grow m c t (ix2 (0 : Fin 1) q)))
        (Ideal.exp (lrow m c t (ix2 (0 : Fin 1) q))) (Ideal.ofBits .f32 0x00000000#32)
      = Spec.blockSum (gF m c) (lF m c) (Spec.row (t.val / 16) r) (t.val % 16) := by
  unfold Spec.blockSum Spec.wK
  refine Finset.sum_congr rfl fun q _ => ?_
  rw [gcol_apply, grow_apply, lrow_apply, Ideal.ofBits_zero_f32]

/-- The accumulator's row `r` after point `n`. -/
def accCF (c : Dev nD) (n : ℕ) (r : Fin 1024) : EReal :=
  Ideal.ofBits .f32 0x00000000#32 + ∑ s ∈ Finset.range (n % 16 + 1), Spec.blockSum (gF m c) (lF m c) (Spec.row (n / 16) r) s

/-- The inverse-weight column's row `r` after point `n`. -/
def invCF (c : Dev nD) (n : ℕ) (r : Fin 1024) : EReal :=
  Ideal.exp (Ideal.ofBits .f32 0x00000000#32 - lF m c (Spec.row (n / 16) r))

/-- THE INVARIANT, by induction on the point. -/
theorem inv_acc (c : Dev nD) : ∀ (n : ℕ) (h : n < cfg0.N),
    (∀ (r : Fin 1024) (z : Fin 1), (outsAt0 m c n h).2.1 (ix2 r z) = accCF m c n r)
    ∧ (∀ (r : Fin 1024) (z : Fin 1), (outsAt0 m c n h).2.2 (ix2 r z) = invCF m c n r) := by
  intro n
  induction n using Nat.strong_induction_on with
  | _ n ih =>
    intro h
    have hN : n < 256 := lt_of_lt_of_eq h (show cfg0.N = 256 from N_0)
    by_cases h0 : n % 16 = 0
    · have h1 : ¬n % 16 = 15 := by omega
      refine ⟨fun r z => ?_, fun r z => ?_⟩
      · refine (congrFun (accA m c ⟨n, h⟩ h0 h1) (ix2 r z)).trans ?_
        rw [Pay.pay3_apply, Pay.pay1_apply, addend_eq]
        unfold accCF
        show _ = _ + ∑ s ∈ Finset.range (n % 16 + 1), _
        rw [h0, Finset.sum_range_one]
      · refine (congrFun (invA m c ⟨n, h⟩ h0 h1) (ix2 r z)).trans ?_
        rw [Pay.pay2_apply, lcol_apply]
        rfl
    · have hpos : n - 1 < n := by omega
      have hd : (n - 1) / 16 = n / 16 := by omega
      have hm : (n - 1) % 16 + 1 = n % 16 := by omega
      obtain ⟨ihA, ihI⟩ := ih (n - 1) hpos (Nat.lt_of_le_of_lt (Nat.sub_le _ _) h)
      have hacc : ∀ (r : Fin 1024) (z : Fin 1),
          k0_pay3 (F := Ideal) (gcol m c ⟨n, h⟩) (grow m c ⟨n, h⟩) (lrow m c ⟨n, h⟩)
            (outsAt0 m c (n - 1) (Nat.lt_of_le_of_lt (Nat.sub_le _ _) h)).2.1 (ix2 r z) = accCF m c n r := by
        intro r z
        rw [Pay.pay3_apply, addend_eq, ihA r z]
        unfold accCF
        show _ + ∑ s ∈ Finset.range ((n - 1) % 16 + 1), _ + _ = _ + ∑ s ∈ Finset.range (n % 16 + 1), _
        rw [hd, hm, Finset.sum_range_succ, add_assoc]
      have hinv : ∀ (r : Fin 1024) (z : Fin 1),
          (outsAt0 m c (n - 1) (Nat.lt_of_le_of_lt (Nat.sub_le _ _) h)).2.2 (ix2 r z) = invCF m c n r := by
        intro r z
        rw [ihI r z]
        unfold invCF
        rw [hd]
      by_cases h1 : n % 16 = 15
      · exact ⟨fun r z => (congrFun (accC m c ⟨n, h⟩ h0 h1) (ix2 r z)).trans (hacc r z),
          fun r z => (congrFun (invC m c ⟨n, h⟩ h0 h1) (ix2 r z)).trans (hinv r z)⟩
      · exact ⟨fun r z => (congrFun (accB m c ⟨n, h⟩ h0 h1) (ix2 r z)).trans (hacc r z),
          fun r z => (congrFun (invB m c ⟨n, h⟩ h0 h1) (ix2 r z)).trans (hinv r z)⟩

/-- A row block's last point writes the kernel's result at the row block's positions. -/
theorem out_last (c : Dev nD) (t : Fin cfg0.N) (h1 : t.val % 16 = 15) (r : Fin 1024) (z : Fin 1) :
    (outsAt0 m c t.val t.isLt).1 (ix2 r z) = Spec.outVal (gF m c) (lF m c) (Spec.row (t.val / 16) r) := by
  have hN : t.val < 256 := lt_of_lt_of_eq t.isLt (show cfg0.N = 256 from N_0)
  have h0 : ¬t.val % 16 = 0 := by omega
  have hd : (t.val - 1) / 16 = t.val / 16 := by omega
  refine (congrFun (outC m c t h0 h1) (ix2 r z)).trans ?_
  rw [Pay.pay4_apply, ← accC m c t h0 h1, (inv_acc m c t.val t.isLt).1 r z,
    (inv_acc m c (t.val - 1) (Nat.lt_of_le_of_lt (Nat.sub_le _ _) t.isLt)).2 r z]
  unfold accCF invCF Spec.outVal
  rw [hd, h1]

end Cert.KernelIdeal.Acc

end
-- ==== Proof.KernelRun.lean ====
/-
  The kernel program's run, read: the result array ends holding the kernel's result at every position, the second
  result the perturbed scores, the arguments unchanged.

  Each row block's last grid point writes its output block back, sixteen blocks of 1024 rows that tile the 16384 × 1
  array the region writes; the program then views that array flat. The perturbed scores are the first operation's
  result, which nothing later writes.
-/
import proofs.«107627_j68367289418254_1_alg».proof.Proof.Acc
import Idealize.ShloMosaic.Lib.Pipeline.Value
import Idealize.ShloMosaic.Lib.StableHlo.Run

noncomputable section

namespace Cert.KernelIdeal.KRun

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.KernelIdeal.HostIn

variable (m : (ℓ : Loc nD τ sig) → Buf (Elt Ideal) ℓ) (ρ : Dev nD → PrngReg)

/-- The array the region writes, after the run: the kernel's result at each row. -/
def outArr (c : Dev nD) : S16384x1.Idx → EReal := fun i => Spec.outVal (gF m c) (lF m c) ⟨(i 0).val, idx2_lt0 i⟩

/-- WHAT A ROW BLOCK'S LAST POINT WRITES BACK is its block of `outArr`. -/
theorem flushed_eq (c : Dev nD) (t : Fin cfg0.N) (hf : (cfg0.win 4).flush t = true) :
    (dats m 0 c).flushed 4 t = ((cfg0.win 4).blk t).view.read (Elt Ideal) (outArr m c) := by
  have hN : t.val < 256 := lt_of_lt_of_eq t.isLt (show cfg0.N = 256 from N_0)
  have h1 : t.val % 16 = 15 := (flush0_4 t).mp hf
  obtain ⟨-, -, -, -, -, -, -, -, e4, -⟩ := idx_facts t
  show (cfg0.win 4).cut (grid0.coords t) ((dats m 0 c).after 4 t) = _
  rw [after0_4]
  funext y
  obtain ⟨r, z, rfl⟩ : ∃ (r : Fin 1024) (z : Fin 1), y = ix2 r z := ⟨y 0, y 1, eq_ix2 y⟩
  rw [View.read_apply]
  show (outsAt0 m c t.val t.isLt).1 (ix2 r z) = outArr m c (((cfg0.win 4).blk t).view.emb (ix2 r z))
  rw [Acc.out_last m c t h1 r z]
  unfold outArr
  refine congrArg (Spec.outVal (gF m c) (lF m c)) (Fin.ext ?_)
  rw [Spec.row_val (by omega)]
  show _ = win0_4.index t (0 : Fin 2) * 1024 + 1 * r.val
  rw [e4]; omega

/-- An index of the array is in point `t`'s block iff each coordinate is in the block's range on its axis. -/
theorem mem_blk (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v5).slice (win0_4.rect t)).set ↔ _
  rw [View.set_slice_whole, Rect.mem_set_unit]
  exact Iff.rfl

/-- Every row is in the block its row block's last point writes back. -/
theorem cover (i : S16384x1.Idx) : ∃ t : Fin cfg0.N, (cfg0.win 4).flush t = true ∧ i ∈ ((cfg0.win 4).blk t).view.set := by
  have hi0 : (i 0).val < 16384 := idx2_lt0 i
  have hi1 : (i 1).val < 1 := idx2_lt1 i
  have hN : cfg0.N = 256 := N_0
  let t : Fin cfg0.N := ⟨16 * ((i 0).val / 1024) + 15, by omega⟩
  have htv : t.val = 16 * ((i 0).val / 1024) + 15 := rfl
  obtain ⟨-, -, -, -, -, -, -, -, e4, e5⟩ := idx_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    rw [e4]; omega
  | ⟨1, _⟩ =>
    show win0_4.index t (1 : Fin 2) * 1 ≤ (i 1).val ∧ (i 1).val < win0_4.index t (1 : Fin 2) * 1 + 1
    rw [e5]; omega

/-- THE ARRAY the region writes, after the run. -/
theorem final (c : Dev nD) : (dats m 0 c).arrAt 4 cfg0.N = outArr m c :=
  (dats m 0 c).arrAt_eq_of_cover 4 (outArr m c) (flushed_eq m c) cover

/-- The kernel's result, as the flat result array. -/
def result (c : Dev nD) : S16384.Idx → EReal := fun i => Spec.outVal (gF m c) (lF m c) ⟨(i 0).val, (i 0).isLt⟩

/-- The program's last operation views the region's array flat. -/
theorem tail_v6 (c : Dev nD) :
    Pipeline.afterTail₀ cfgs (dats m) 0 (V0 m) [hostOps1] c main_v6 = result m c := by
  have hA : Pipeline.withArrays (cfgs 0).spec c (V0 m c) (fun w => (dats m 0 c).arrAt w (cfgs 0).N) (Proc.devRef .tc main_v5)
      = outArr m c :=
    (Pipeline.withArrays_arr spec0 launch0.win.arr_inj c _ _ 4).trans (final m c)
  unfold Pipeline.afterTail₀
  show StableHlo.after hostOps1 _ (Proc.devRef .tc main_v6) = _
  after_results
  funext i
  show shapeCast S16384 (Pipeline.withArrays (cfgs 0).spec c (V0 m c) (fun w => (dats m 0 c).arrAt w (cfgs 0).N)
    (Proc.devRef .tc main_v5)) shapeCasts_S16384x1_S16384 i = _
  rw [hA]
  refine (shapeCast_apply (outArr m c) shapeCasts_S16384x1_S16384 i (ix2 (i 0) (0 : Fin 1)) ?_).trans rfl
  rw [Shape.rowMajor_val_two, Shape.rowMajor_val_one]
  show (i 0).val * 1 + 0 = (i 0).val
  omega

/-- Nothing after the first operation writes the perturbed scores. -/
theorem tail_v0 (c : Dev nD) :
    Pipeline.afterTail₀ cfgs (dats m) 0 (V0 m) [hostOps1] c main_v0 = gArr m c := by
  unfold Pipeline.afterTail₀
  rw [StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v0 (by exact (by decide : ∀ w, Pipeline.arrRef spec0 w ≠ main_v0))]
  exact V_v0 m c

/-- THE RUN, READ: every weakly fair execution of the kernel program ends with the first result at the kernel's
    result, the second at the perturbed scores, and the arguments as launched. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_v0) = gArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_v6 m c),
      ((h c).2 main_v0 (Pipeline.mem_restRefs_of main_v0 (by decide) (by decide))).trans (tail_v0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.RefVal.lean ====
/-
  The reference's result, read at one position: with `g = logits + noise`, position `a` holds
  `-(log ((0 + sum over all keys k of (exp (l k - l a) where g a ≥ g k, else 0)) + 1e-10))`.
-/
import proofs.«107627_j68367289418254_1_alg».proof.Proof.Gen.ReferenceIdeal.Read
import proofs.«107627_j68367289418254_1_alg».proof.Proof.Law
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-- Row `a`, key `k` of the 16384 × 16384 table reads the column operands at `a` and the row operands at `k`. -/
theorem e_ga (a k : Fin 16384) : idx_main_v1 (idx_main_v3 (idx_main_v13 (ix1 a) k)) = ix1 a := by
  funext d; match d with | ⟨0, _⟩ => rfl
theorem e_gk (a k : Fin 16384) : idx_main_v2 (idx_main_v4 (idx_main_v13 (ix1 a) k)) = ix1 k := by
  funext d; match d with | ⟨0, _⟩ => rfl
theorem e_lk (a k : Fin 16384) : idx_main_v6 (idx_main_v8 (idx_main_v13 (ix1 a) k)) = ix1 k := by
  funext d; match d with | ⟨0, _⟩ => rfl
theorem e_la (a k : Fin 16384) : idx_main_v7 (idx_main_v9 (idx_main_v13 (ix1 a) k)) = ix1 a := by
  funext d; match d with | ⟨0, _⟩ => rfl

theorem ref_apply (x0 x1 : S16384.Idx → EReal) (a : Fin 16384) :
    val_main_v17 (F := Ideal) x0 x1 (ix1 a)
      = Spec.refVal (fun k => x0 (ix1 k) + x1 (ix1 k)) (fun k => x0 (ix1 k)) a := by
  rw [val_main_v17_apply, val_main_v16_apply, val_main_v15_apply, val_main_v14_apply, val_main_cst_1_apply,
    val_main_v13_apply, val_main_cst_0_apply]
  unfold Spec.refVal
  have hk : ∀ k : Fin 16384, val_main_v12 (F := Ideal) x0 x1 (idx_main_v13 (ix1 a) k)
      = Scalar.select (Ideal.cmp .oge (x0 (ix1 a) + x1 (ix1 a)) (x0 (ix1 k) + x1 (ix1 k)))
          (Ideal.exp (x0 (ix1 k) - x0 (ix1 a))) (Ideal.ofBits .f32 0x00000000#32) := by
    intro k
    rw [val_main_v12_apply, val_main_v5_apply, val_main_v3_apply, val_main_v1_apply, val_main_v0_apply,
      val_main_v4_apply, val_main_v2_apply, val_main_v0_apply, val_main_v11_apply, val_main_v10_apply,
      val_main_v8_apply, val_main_v6_apply, val_main_v9_apply, val_main_v7_apply, val_main_call0_v0_apply,
      val_main_cst_apply, e_ga, e_gk, e_lk, e_la]
    rfl
  simp only [hk, Ideal.hostNegf_def, Ideal.negf_def, Ideal.hostUnary_log_def, Ideal.addf_def, Ideal.ofBits_def]

end Cert.ReferenceIdeal.RefValue

end
-- ==== Proof.Finite.lean ====
/-
  Finite inputs are real numbers: the precondition says that every element of both arguments has absolute value below
  `+inf`, and an extended real whose absolute value is below the top element is neither infinity.
-/
import proofs.«107627_j68367289418254_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- The word `0x7F800000` is `+inf`. -/
theorem inf_word : Ideal.ofBits .f32 0x7F800000#32 = (⊤ : EReal) := by simp [Ideal.ofBits, Ideal.ieee]

/-- An extended real with `|x| < +inf` is a real. -/
theorem real_of_abs_lt_inf (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- Under the precondition both arguments hold real numbers. -/
theorem real_of_pre [Cert.Pre_finite_inputs.Facts] (a0 a1 : FVec Ideal Cert.Pre_finite_inputs.S16384 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.1 h0
  refine ⟨fun i => ?_, fun i => ?_⟩
  · exact real_of_abs_lt_inf (a0 i) (Host.reduce_andi_all _ _ _ _ _ h1 i)
  · exact real_of_abs_lt_inf (a1 i) (Host.reduce_andi_all _ _ _ _ _ h2 i)

end Cert.Finite

end
-- ==== Proof.Claims.lean ====
/-
  The five claims.

  The frames of the two kernel programs are the generated frame certificates; the reference's frame is its run with the
  results dropped. The ideal pass rewrote nothing, so `preserves` is `True`. For `algebraic`: the kernel program ends
  with its first result at `0 - log (exp (0 - l a) * (sixteen block sums) + 1e-10)` at each position `a` and its second at
  `logits + noise`; the reference ends with `-(log ((sum over all keys) + 1e-10))` and the same second result; on the
  finite logits the precondition gives, the two first results are equal position by position.
-/
import proofs.«107627_j68367289418254_1_alg».proof.Defs
import proofs.«107627_j68367289418254_1_alg».proof.Proof.Gen.Kernel.Frame
import proofs.«107627_j68367289418254_1_alg».proof.Proof.Gen.KernelIdeal.Frame
import proofs.«107627_j68367289418254_1_alg».proof.Proof.Gen.ReferenceIdeal.Run
import proofs.«107627_j68367289418254_1_alg».proof.Proof.Gen.ReferenceIdeal.Read
import proofs.«107627_j68367289418254_1_alg».proof.Proof.Gen.Pre_finite_inputs
import proofs.«107627_j68367289418254_1_alg».proof.Proof.KernelRun
import proofs.«107627_j68367289418254_1_alg».proof.Proof.RefVal
import proofs.«107627_j68367289418254_1_alg».proof.Proof.Finite

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.KRun.result m c, fun c => Cert.KernelIdeal.HostIn.gArr m c,
    Cert.KernelIdeal.KRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v17_eq, (hagree c).1, (hagree c).2]
    funext i
    obtain ⟨a, rfl⟩ : ∃ a : Fin 16384, i = ix1 a := ⟨i 0, eq_ix1 i⟩
    refine (Cert.ReferenceIdeal.RefValue.ref_apply _ _ a).trans ?_
    exact (Cert.Spec.outVal_eq_refVal (Cert.KernelIdeal.HostIn.gF m c) (Cert.KernelIdeal.HostIn.lF m c)
      (fun k => (Cert.Finite.real_of_pre _ _ (hpre c)).1 (ix1 k)) a).symm
  · rw [(h c).2.1, (hagree c).1, (hagree c).2]

end Cert.Proof.Claims

end
-- ==== Proof.lean ====
/-
  The certificate of a Plackett–Luce log-probability kernel against its jnp reference, over the extended reals.

  With `g = logits + noise`, both programs return, at each of the 16384 positions `a`,
  `-log (Σ_k [g a ≥ g k] · exp (l k - l a) + 1e-10)`, and `g` itself. The kernel factors `exp (l k - l a)` as
  `exp (-l a) · exp (l k)`, sums the masked `exp (l k)` over sixteen key blocks of 1024 into a column accumulator carried
  across the grid, and multiplies by `exp (-l a)` at a row block's last point; the reference forms the whole
  16384 × 16384 table and sums its rows. On finite logits the two agree (Proof/Spec.lean, Proof/Law.lean): the factoring
  is the exponential's functional equation, the real factor distributes over the finite sum, and sixteen blocks of
  1024 keys are all the keys. Proof/Payload.lean reads the body's stores element by element, Proof/Pieces.lean and
  Proof/Acc.lean the accumulator after each grid point (by induction on the point), Proof/KernelRun.lean the result
  arrays after the run, Proof/RefVal.lean the reference at a position, Proof/Finite.lean the precondition, and
  Proof/Claims.lean states the five claims.
-/
import proofs.«107627_j68367289418254_1_alg».proof.Defs
import proofs.«107627_j68367289418254_1_alg».proof.Proof.Gen.Kernel
import proofs.«107627_j68367289418254_1_alg».proof.Proof.Gen.Kernel.Skeleton
import proofs.«107627_j68367289418254_1_alg».proof.Proof.Gen.Kernel.Launch
import proofs.«107627_j68367289418254_1_alg».proof.Proof.Gen.Kernel.Points
import proofs.«107627_j68367289418254_1_alg».proof.Proof.Gen.Kernel.Frame
import proofs.«107627_j68367289418254_1_alg».proof.Proof.Gen.KernelIdeal
import proofs.«107627_j68367289418254_1_alg».proof.Proof.Gen.KernelIdeal.Skeleton
import proofs.«107627_j68367289418254_1_alg».proof.Proof.Gen.KernelIdeal.Launch
import proofs.«107627_j68367289418254_1_alg».proof.Proof.Gen.KernelIdeal.Points
import proofs.«107627_j68367289418254_1_alg».proof.Proof.Gen.KernelIdeal.Frame
import proofs.«107627_j68367289418254_1_alg».proof.Proof.Gen.ReferenceIdeal
import proofs.«107627_j68367289418254_1_alg».proof.Proof.Gen.Pre_finite_inputs
import proofs.«107627_j68367289418254_1_alg».proof.Proof.Gen.ReferenceIdeal.Run
import proofs.«107627_j68367289418254_1_alg».proof.Proof.Gen.ReferenceIdeal.Read
import proofs.«107627_j68367289418254_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
